-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_v93) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x64 : Shape := ⟨2, ![10000, 64]⟩
abbrev S320000 : Shape := ⟨1, ![320000]⟩
abbrev S512x64 : Shape := ⟨2, ![512, 64]⟩
abbrev S64 : Shape := ⟨1, ![64]⟩
abbrev S64x64 : Shape := ⟨2, ![64, 64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_v33

def fn {F : FTy → Type} [FloatOps F] (main_arg0 : FVec F S10000x512 .f32) (main_arg1 : FVec F S10000x64 .f32) (main_arg2 : IVec S320000 32) (main_arg3 : IVec S320000 32) (main_arg4 : FVec F S512x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S512x64 .f32 := Host.absf main_arg4
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S10000x512 : Shape := ⟨2, ![10000, 512]⟩
abbrev S10000x64 : Shape := ⟨2, ![10000, 64]⟩
abbrev S320000 : Shape := ⟨1, ![320000]⟩
abbrev S512x64 : Shape := ⟨2, ![512, 64]⟩
abbrev S64 : Shape := ⟨1, ![64]⟩
abbrev S64x64 : Shape := ⟨2, ![64, 64]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S320000x64 : Shape := ⟨2, ![320000, 64]⟩
abbrev S1x64 : Shape := ⟨2, ![1, 64]⟩
abbrev S10000x10000 : Shape := ⟨2, ![10000, 10000]⟩
abbrev S200x64 : Shape := ⟨2, ![200, 64]⟩
abbrev S200x10000 : Shape := ⟨2, ![200, 10000]⟩

abbrev nBuf : Space → Nat
  | .hbm => 143
  | .vmem => 5
  | .smem => 0
  | _ => 0

abbrev hbmTy0_0 (i : Nat) : BufTy := match i % 128 with
  | 0 => ⟨S10000x512, .f32⟩
  | 1 => ⟨S10000x64, .f32⟩
  | 2 => ⟨S320000, .i32⟩
  | 3 => ⟨S320000, .i32⟩
  | 4 => ⟨S512x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S_, .f32⟩
  | 11 => ⟨S320000, .f32⟩
  | 12 => ⟨S_, .f32⟩
  | 13 => ⟨S10000, .f32⟩
  | 14 => ⟨S320000x1, .i32⟩
  | 15 => ⟨S10000, .f32⟩
  | 16 => ⟨S_, .f32⟩
  | 17 => ⟨S_, .f32⟩
  | 18 => ⟨S10000, .f32⟩
  | 19 => ⟨S10000, .f32⟩
  | 20 => ⟨S_, .f32⟩
  | 21 => ⟨S10000, .f32⟩
  | 22 => ⟨S320000x1, .i32⟩
  | 23 => ⟨S10000, .f32⟩
  | 24 => ⟨S_, .f32⟩
  | 25 => ⟨S_, .f32⟩
  | 26 => ⟨S10000, .f32⟩
  | 27 => ⟨S10000, .f32⟩
  | 28 => ⟨S10000, .f32⟩
  | 29 => ⟨S10000x1, .f32⟩
  | 30 => ⟨S10000x512, .f32⟩
  | 31 => ⟨S10000x512, .f32⟩
  | 32 => ⟨S10000x64, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x64, .f32⟩
  | 42 => ⟨S_, .f32⟩
  | 43 => ⟨S10000x64, .f32⟩
  | 44 => ⟨S320000x1, .i32⟩
  | 45 => ⟨S10000x64, .f32⟩
  | 46 => ⟨S10000, .f32⟩
  | 47 => ⟨S10000x1, .f32⟩
  | 48 => ⟨S10000x64, .f32⟩
  | 49 => ⟨S10000x64, .f32⟩
  | 50 => ⟨S1x64, .f32⟩
  | 51 => ⟨S10000x64, .f32⟩
  | 52 => ⟨S10000x64, .f32⟩
  | 53 => ⟨S_, .f32⟩
  | 54 => ⟨S320000, .f32⟩
  | 55 => ⟨S_, .f32⟩
  | 56 => ⟨S10000, .f32⟩
  | 57 => ⟨S320000x1, .i32⟩
  | 58 => ⟨S10000, .f32⟩
  | 59 => ⟨S_, .f32⟩
  | 60 => ⟨S_, .f32⟩
  | 61 => ⟨S10000, .f32⟩
  | 62 => ⟨S10000, .f32⟩
  | 63 => ⟨S_, .f32⟩
  | 64 => ⟨S10000, .f32⟩
  | 65 => ⟨S320000x1, .i32⟩
  | 66 => ⟨S10000, .f32⟩
  | 67 => ⟨S_, .f32⟩
  | 68 => ⟨S_, .f32⟩
  | 69 => ⟨S10000, .f32⟩
  | 70 => ⟨S10000, .f32⟩
  | 71 => ⟨S10000, .f32⟩
  | 72 => ⟨S10000x1, .f32⟩
  | 73 => ⟨S10000x64, .f32⟩
  | 74 => ⟨S10000x64, .f32⟩
  | 75 => ⟨S10000x64, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S320000x64, .f32⟩
  | 85 => ⟨S_, .f32⟩
  | 86 => ⟨S10000x64, .f32⟩
  | 87 => ⟨S320000x1, .i32⟩
  | 88 => ⟨S10000x64, .f32⟩
  | 89 => ⟨S10000, .f32⟩
  | 90 => ⟨S10000x1, .f32⟩
  | 91 => ⟨S10000x64, .f32⟩
  | 92 => ⟨S10000x64, .f32⟩
  | 93 => ⟨S1x64, .f32⟩
  | 94 => ⟨S10000x64, .f32⟩
  | 95 => ⟨S10000x64, .f32⟩
  | 96 => ⟨S_, .f32⟩
  | 97 => ⟨S320000, .f32⟩
  | 98 => ⟨S_, .f32⟩
  | 99 => ⟨S10000, .f32⟩
  | 100 => ⟨S320000x1, .i32⟩
  | 101 => ⟨S10000, .f32⟩
  | 102 => ⟨S_, .f32⟩
  | 103 => ⟨S_, .f32⟩
  | 104 => ⟨S10000, .f32⟩
  | 105 => ⟨S10000, .f32⟩
  | 106 => ⟨S_, .f32⟩
  | 107 => ⟨S10000, .f32⟩
  | 108 => ⟨S320000x1, .i32⟩
  | 109 => ⟨S10000, .f32⟩
  | 110 => ⟨S_, .f32⟩
  | 111 => ⟨S_, .f32⟩
  | 112 => ⟨S10000, .f32⟩
  | 113 => ⟨S10000, .f32⟩
  | 114 => ⟨S10000, .f32⟩
  | 115 => ⟨S10000x1, .f32⟩
  | 116 => ⟨S10000x64, .f32⟩
  | 117 => ⟨S10000x64, .f32⟩
  | 118 => ⟨S10000x64, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S320000x64, .f32⟩
  | _ => ⟨S10000x512, .f32⟩

abbrev hbmTy0_1 (i : Nat) : BufTy := match i % 128 with
  | 0 => ⟨S_, .f32⟩
  | 1 => ⟨S10000x64, .f32⟩
  | 2 => ⟨S320000x1, .i32⟩
  | 3 => ⟨S10000x64, .f32⟩
  | 4 => ⟨S10000, .f32⟩
  | 5 => ⟨S10000x1, .f32⟩
  | 6 => ⟨S10000x64, .f32⟩
  | 7 => ⟨S10000x64, .f32⟩
  | 8 => ⟨S1x64, .f32⟩
  | 9 => ⟨S10000x64, .f32⟩
  | 10 => ⟨S10000x64, .f32⟩
  | 11 => ⟨S10000x64, .f32⟩
  | 12 => ⟨S10000x64, .f32⟩
  | 13 => ⟨S10000x64, .f32⟩
  | 14 => ⟨S10000x10000, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | .local _ .vmem, ⟨0, _⟩ => ⟨S200x64, .f32⟩
  | .local _ .vmem, ⟨1, _⟩ => ⟨S200x64, .f32⟩
  | .local _ .vmem, ⟨2, _⟩ => ⟨S10000x64, .f32⟩
  | .local _ .vmem, ⟨3, _⟩ => ⟨S200x10000, .f32⟩
  | .local _ .vmem, ⟨4, _⟩ => ⟨S200x10000, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_call2_v0 : Ref sig .tc := ⟨.hbm, 60, rfl⟩
abbrev main_call2_v1 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_10 : Ref sig .tc := ⟨.hbm, 67, rfl⟩
abbrev main_call3_v0 : Ref sig .tc := ⟨.hbm, 68, rfl⟩
abbrev main_call3_v1 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_11 : Ref sig .tc := ⟨.hbm, 76, rfl⟩
abbrev main_v45 : Ref sig .tc := ⟨.hbm, 77, rfl⟩
abbrev main_v46 : Ref sig .tc := ⟨.hbm, 78, rfl⟩
abbrev main_c_12 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_16 : Ref sig .tc := ⟨.hbm, 102, rfl⟩
abbrev main_call4_v0 : Ref sig .tc := ⟨.hbm, 103, rfl⟩
abbrev main_call4_v1 : Ref sig .tc := ⟨.hbm, 104, rfl⟩
abbrev main_v66 : Ref sig .tc := ⟨.hbm, 105, rfl⟩
abbrev main_cst_17 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_18 : Ref sig .tc := ⟨.hbm, 110, rfl⟩
abbrev main_call5_v0 : Ref sig .tc := ⟨.hbm, 111, rfl⟩
abbrev main_call5_v1 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_19 : Ref sig .tc := ⟨.hbm, 119, rfl⟩
abbrev main_v76 : Ref sig .tc := ⟨.hbm, 120, rfl⟩
abbrev main_v77 : Ref sig .tc := ⟨.hbm, 121, rfl⟩
abbrev main_c_20 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_21 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  inb_S200x64_S200x64_0_0 : ∀ a, (![0, 0] : Fin 2 → Nat) a + S200x64.size a ≤ S200x64.size a
  h_S200x64 : 0 < S200x64.numel
  shapeCasts_S200x64_S200x64 : S200x64.ShapeCasts S200x64
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x10000_S200x10000_0_0 : ∀ a, (![0, 0] : Fin 2 → Nat) a + S200x10000.size a ≤ S200x10000.size a
  h_S200x10000 : 0 < S200x10000.numel
  scatter_S10000_S320000x1_S320000_n_0_0_1_wf : ScatterDims.WF S10000 S320000x1 S320000 [] [0] [0] 1
  dot_S10000x512_S512x64_S10000x64_1_0_0_1_n_n_wf : DotDims.WF S10000x512 S512x64 S10000x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1
  dot_S10000x64_S64x64_S10000x64_1_0_0_1_n_n_wf : DotDims.WF S10000x64 S64x64 S10000x64 [1] [0] [0] [1] [] []
  dot_S200x64_S10000x64_S200x10000_1_1_0_0_n_n_wf : DotDims.WF S200x64 S10000x64 S200x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x64.size a ≤ S10000x64.size a
  hwx0_0 : ∀ i : grid0.Coords, EltTy.bits .f32 = 32 ∨ (Rect.block (s := S10000x64) S200x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S10000x64.size a
  hwx0_1 : ∀ i : grid0.Coords, EltTy.bits .f32 = 32 ∨ (Rect.block (s := S10000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S200x64_S10000x64_S200x10000_1_1_0_0_n_n : DotDims S200x64 S10000x64 S200x10000 where
  lhsContracting := [1]
  rhsContracting := [1]
  lhsNonContracting := [0]
  rhsNonContracting := [0]
  lhsBatch := []
  rhsBatch := []
  wf := dot_S200x64_S10000x64_S200x10000_1_1_0_0_n_n_wf

abbrev win0_0 : Pipeline.Window sig grid0 :=
  Pipeline.Window.ofSpec (Memref.whole main_v95) S200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v95) S10000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v96) S200x10000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x512 : Shape := ⟨2, ![10000, 512]⟩
abbrev S10000x64 : Shape := ⟨2, ![10000, 64]⟩
abbrev S320000 : Shape := ⟨1, ![320000]⟩
abbrev S512x64 : Shape := ⟨2, ![512, 64]⟩
abbrev S64 : Shape := ⟨1, ![64]⟩
abbrev S64x64 : Shape := ⟨2, ![64, 64]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S320000x64 : Shape := ⟨2, ![320000, 64]⟩
abbrev S1x64 : Shape := ⟨2, ![1, 64]⟩
abbrev S64x10000 : Shape := ⟨2, ![64, 10000]⟩
abbrev S10000x10000 : Shape := ⟨2, ![10000, 10000]⟩

abbrev nBuf : Space → Nat
  | .hbm => 152
  | .vmem => 0
  | .smem => 0
  | _ => 0

abbrev hbmTy0_0 (i : Nat) : BufTy := match i % 128 with
  | 0 => ⟨S10000x512, .f32⟩
  | 1 => ⟨S10000x64, .f32⟩
  | 2 => ⟨S320000, .i32⟩
  | 3 => ⟨S320000, .i32⟩
  | 4 => ⟨S512x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S_, .f32⟩
  | 11 => ⟨S320000, .f32⟩
  | 12 => ⟨S_, .f32⟩
  | 13 => ⟨S10000, .f32⟩
  | 14 => ⟨S320000x1, .i32⟩
  | 15 => ⟨S10000, .f32⟩
  | 16 => ⟨S_, .f32⟩
  | 17 => ⟨S_, .f32⟩
  | 18 => ⟨S10000, .f32⟩
  | 19 => ⟨S10000, .f32⟩
  | 20 => ⟨S_, .f32⟩
  | 21 => ⟨S10000, .f32⟩
  | 22 => ⟨S320000x1, .i32⟩
  | 23 => ⟨S10000, .f32⟩
  | 24 => ⟨S_, .f32⟩
  | 25 => ⟨S_, .f32⟩
  | 26 => ⟨S10000, .f32⟩
  | 27 => ⟨S10000, .f32⟩
  | 28 => ⟨S10000, .f32⟩
  | 29 => ⟨S10000x1, .f32⟩
  | 30 => ⟨S10000x512, .f32⟩
  | 31 => ⟨S10000x512, .f32⟩
  | 32 => ⟨S10000x64, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000x64, .f32⟩
  | 42 => ⟨S_, .f32⟩
  | 43 => ⟨S10000x64, .f32⟩
  | 44 => ⟨S320000x1, .i32⟩
  | 45 => ⟨S10000x64, .f32⟩
  | 46 => ⟨S10000, .f32⟩
  | 47 => ⟨S10000x1, .f32⟩
  | 48 => ⟨S10000x64, .f32⟩
  | 49 => ⟨S10000x64, .f32⟩
  | 50 => ⟨S1x64, .f32⟩
  | 51 => ⟨S10000x64, .f32⟩
  | 52 => ⟨S10000x64, .f32⟩
  | 53 => ⟨S_, .f32⟩
  | 54 => ⟨S320000, .f32⟩
  | 55 => ⟨S_, .f32⟩
  | 56 => ⟨S10000, .f32⟩
  | 57 => ⟨S320000x1, .i32⟩
  | 58 => ⟨S10000, .f32⟩
  | 59 => ⟨S_, .f32⟩
  | 60 => ⟨S_, .f32⟩
  | 61 => ⟨S10000, .f32⟩
  | 62 => ⟨S10000, .f32⟩
  | 63 => ⟨S_, .f32⟩
  | 64 => ⟨S10000, .f32⟩
  | 65 => ⟨S320000x1, .i32⟩
  | 66 => ⟨S10000, .f32⟩
  | 67 => ⟨S_, .f32⟩
  | 68 => ⟨S_, .f32⟩
  | 69 => ⟨S10000, .f32⟩
  | 70 => ⟨S10000, .f32⟩
  | 71 => ⟨S10000, .f32⟩
  | 72 => ⟨S10000x1, .f32⟩
  | 73 => ⟨S10000x64, .f32⟩
  | 74 => ⟨S10000x64, .f32⟩
  | 75 => ⟨S10000x64, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S320000x64, .f32⟩
  | 85 => ⟨S_, .f32⟩
  | 86 => ⟨S10000x64, .f32⟩
  | 87 => ⟨S320000x1, .i32⟩
  | 88 => ⟨S10000x64, .f32⟩
  | 89 => ⟨S10000, .f32⟩
  | 90 => ⟨S10000x1, .f32⟩
  | 91 => ⟨S10000x64, .f32⟩
  | 92 => ⟨S10000x64, .f32⟩
  | 93 => ⟨S1x64, .f32⟩
  | 94 => ⟨S10000x64, .f32⟩
  | 95 => ⟨S10000x64, .f32⟩
  | 96 => ⟨S_, .f32⟩
  | 97 => ⟨S320000, .f32⟩
  | 98 => ⟨S_, .f32⟩
  | 99 => ⟨S10000, .f32⟩
  | 100 => ⟨S320000x1, .i32⟩
  | 101 => ⟨S10000, .f32⟩
  | 102 => ⟨S_, .f32⟩
  | 103 => ⟨S_, .f32⟩
  | 104 => ⟨S10000, .f32⟩
  | 105 => ⟨S10000, .f32⟩
  | 106 => ⟨S_, .f32⟩
  | 107 => ⟨S10000, .f32⟩
  | 108 => ⟨S320000x1, .i32⟩
  | 109 => ⟨S10000, .f32⟩
  | 110 => ⟨S_, .f32⟩
  | 111 => ⟨S_, .f32⟩
  | 112 => ⟨S10000, .f32⟩
  | 113 => ⟨S10000, .f32⟩
  | 114 => ⟨S10000, .f32⟩
  | 115 => ⟨S10000x1, .f32⟩
  | 116 => ⟨S10000x64, .f32⟩
  | 117 => ⟨S10000x64, .f32⟩
  | 118 => ⟨S10000x64, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S320000x64, .f32⟩
  | _ => ⟨S10000x512, .f32⟩

abbrev hbmTy0_1 (i : Nat) : BufTy := match i % 128 with
  | 0 => ⟨S_, .f32⟩
  | 1 => ⟨S10000x64, .f32⟩
  | 2 => ⟨S320000x1, .i32⟩
  | 3 => ⟨S10000x64, .f32⟩
  | 4 => ⟨S10000, .f32⟩
  | 5 => ⟨S10000x1, .f32⟩
  | 6 => ⟨S10000x64, .f32⟩
  | 7 => ⟨S10000x64, .f32⟩
  | 8 => ⟨S1x64, .f32⟩
  | 9 => ⟨S10000x64, .f32⟩
  | 10 => ⟨S10000x64, .f32⟩
  | 11 => ⟨S10000x64, .f32⟩
  | 12 => ⟨S10000x64, .f32⟩
  | 13 => ⟨S10000x64, .f32⟩
  | 14 => ⟨S64x10000, .f32⟩
  | 15 => ⟨S10000x10000, .f32⟩
  | 16 => ⟨S10000x10000, .f32⟩
  | 17 => ⟨S10000x10000, .f32⟩
  | 18 => ⟨S_, .f32⟩
  | 19 => ⟨S10000x10000, .f32⟩
  | 20 => ⟨S10000x10000, .f32⟩
  | 21 => ⟨S_, .f32⟩
  | 22 => ⟨S10000x10000, .f32⟩
  | 23 => ⟨S10000x10000, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_call2_v0 : Ref sig .tc := ⟨.hbm, 60, rfl⟩
abbrev main_call2_v1 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_10 : Ref sig .tc := ⟨.hbm, 67, rfl⟩
abbrev main_call3_v0 : Ref sig .tc := ⟨.hbm, 68, rfl⟩
abbrev main_call3_v1 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_11 : Ref sig .tc := ⟨.hbm, 76, rfl⟩
abbrev main_v45 : Ref sig .tc := ⟨.hbm, 77, rfl⟩
abbrev main_v46 : Ref sig .tc := ⟨.hbm, 78, rfl⟩
abbrev main_c_12 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_16 : Ref sig .tc := ⟨.hbm, 102, rfl⟩
abbrev main_call4_v0 : Ref sig .tc := ⟨.hbm, 103, rfl⟩
abbrev main_call4_v1 : Ref sig .tc := ⟨.hbm, 104, rfl⟩
abbrev main_v66 : Ref sig .tc := ⟨.hbm, 105, rfl⟩
abbrev main_cst_17 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_18 : Ref sig .tc := ⟨.hbm, 110, rfl⟩
abbrev main_call5_v0 : Ref sig .tc := ⟨.hbm, 111, rfl⟩
abbrev main_call5_v1 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_19 : Ref sig .tc := ⟨.hbm, 119, rfl⟩
abbrev main_v76 : Ref sig .tc := ⟨.hbm, 120, rfl⟩
abbrev main_v77 : Ref sig .tc := ⟨.hbm, 121, rfl⟩
abbrev main_c_20 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_21 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_22 : Ref sig .tc := ⟨.hbm, 146, rfl⟩
abbrev main_v100 : Ref sig .tc := ⟨.hbm, 147, rfl⟩
abbrev main_v101 : Ref sig .tc := ⟨.hbm, 148, rfl⟩
abbrev main_cst_23 : Ref sig .tc := ⟨.hbm, 149, rfl⟩
abbrev main_v102 : Ref sig .tc := ⟨.hbm, 150, rfl⟩
abbrev main_v103 : Ref sig .tc := ⟨.hbm, 151, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  scatter_S10000_S320000x1_S320000_n_0_0_1_wf : ScatterDims.WF S10000 S320000x1 S320000 [] [0] [0] 1
  dot_S10000x512_S512x64_S10000x64_1_0_0_1_n_n_wf : DotDims.WF S10000x512 S512x64 S10000x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1
  dot_S10000x64_S64x64_S10000x64_1_0_0_1_n_n_wf : DotDims.WF S10000x64 S64x64 S10000x64 [1] [0] [0] [1] [] []
  dot_S10000x64_S64x10000_S10000x10000_1_0_0_1_n_n_wf : DotDims.WF S10000x64 S64x10000 S10000x10000 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.Kernel.Entry.lean ====
/-
  The kernel's @main up to its one pallas_call.

  Before the call @main runs thirteen stretches of host operations: three graph convolutions — the out- and in-degrees
  as scatter-adds of ones along the edges, clamped below at one, their inverse square roots scaling the rows before and
  after, a dense layer, a row gather at the edges' sources and a scatter-add at their targets, a bias row — and then
  `z = eps * exp logvar + mu`. The call therefore finds every buffer at the fold of those operations over the launch
  memory (`V`). Each operation writes one buffer of its own and none writes an argument, so the call finds every
  argument array as launched.
-/
import proofs.«164066_j8186207666838_1_alg».proof.Proof.Gen.Kernel.Launch
import Idealize.ShloMosaic.Lib.Pipeline.Frame
import Idealize.ShloMosaic.Lib.StableHlo.Run

set_option maxRecDepth 16384

noncomputable section

namespace Cert.Kernel.Decode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

/-- The host operations before the call, stretch by stretch, in program order. -/
abbrev hostLines : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12]

variable (m : (ℓ : Loc nD τ sig) → Buf (Elt F) ℓ)

/-- Core `c`'s buffers when the call is entered: the launch memory after every host operation before it. -/
abbrev V (c : Dev nD) (b : Ref sig .tc) : Buf (Elt F) ((c : Thread nD τ).loc b) :=
  StableHlo.after (List.flatten hostLines) (fun b => m (c, b)) b

/-! ## No stretch declares a buffer of its own -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-! ## @main is those stretches, then the call -/

/-- Holding the unscoped buffers at the launch memory, @main reduces to the call holding them at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩)
    main_chain

/-! ## The arguments as the call finds them -/

/-- A buffer that is the result of no host operation before the call holds its launch contents there: the goal is
    read as one inequality of references per operation, each decided. -/
local macro "not_written_before_call" : tactic => `(tactic| (
  refine StableHlo.after_of_forall_not_mem _ _ (List.forall_iff_forall_mem.mp ?_)
  simp only [hostLines, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, List.Forall, StableHlo.nullary_writes, StableHlo.unary_writes,
    StableHlo.binary_writes, StableHlo.ternary_writes, Finset.mem_singleton]
  repeat' apply And.intro
  all_goals exact StableHlo.devRef_ne_of_ne (by decide)))

theorem V_main_arg0 (c : Dev nD) : V m c main_arg0 = m ((c : Thread nD τ).loc main_arg0) := by
  show StableHlo.after (List.flatten hostLines) (fun b => m (c, b)) (Proc.devRef .tc main_arg0) = _
  not_written_before_call
theorem V_main_arg1 (c : Dev nD) : V m c main_arg1 = m ((c : Thread nD τ).loc main_arg1) := by
  show StableHlo.after (List.flatten hostLines) (fun b => m (c, b)) (Proc.devRef .tc main_arg1) = _
  not_written_before_call
theorem V_main_arg2 (c : Dev nD) : V m c main_arg2 = m ((c : Thread nD τ).loc main_arg2) := by
  show StableHlo.after (List.flatten hostLines) (fun b => m (c, b)) (Proc.devRef .tc main_arg2) = _
  not_written_before_call
theorem V_main_arg3 (c : Dev nD) : V m c main_arg3 = m ((c : Thread nD τ).loc main_arg3) := by
  show StableHlo.after (List.flatten hostLines) (fun b => m (c, b)) (Proc.devRef .tc main_arg3) = _
  not_written_before_call
theorem V_main_arg4 (c : Dev nD) : V m c main_arg4 = m ((c : Thread nD τ).loc main_arg4) := by
  show StableHlo.after (List.flatten hostLines) (fun b => m (c, b)) (Proc.devRef .tc main_arg4) = _
  not_written_before_call
theorem V_main_arg5 (c : Dev nD) : V m c main_arg5 = m ((c : Thread nD τ).loc main_arg5) := by
  show StableHlo.after (List.flatten hostLines) (fun b => m (c, b)) (Proc.devRef .tc main_arg5) = _
  not_written_before_call
theorem V_main_arg6 (c : Dev nD) : V m c main_arg6 = m ((c : Thread nD τ).loc main_arg6) := by
  show StableHlo.after (List.flatten hostLines) (fun b => m (c, b)) (Proc.devRef .tc main_arg6) = _
  not_written_before_call
theorem V_main_arg7 (c : Dev nD) : V m c main_arg7 = m ((c : Thread nD τ).loc main_arg7) := by
  show StableHlo.after (List.flatten hostLines) (fun b => m (c, b)) (Proc.devRef .tc main_arg7) = _
  not_written_before_call
theorem V_main_arg8 (c : Dev nD) : V m c main_arg8 = m ((c : Thread nD τ).loc main_arg8) := by
  show StableHlo.after (List.flatten hostLines) (fun b => m (c, b)) (Proc.devRef .tc main_arg8) = _
  not_written_before_call
theorem V_main_arg9 (c : Dev nD) : V m c main_arg9 = m ((c : Thread nD τ).loc main_arg9) := by
  show StableHlo.after (List.flatten hostLines) (fun b => m (c, b)) (Proc.devRef .tc main_arg9) = _
  not_written_before_call

end Cert.Kernel.Decode

end
-- ==== Proof.Kernel.Body.lean ====
/-
  The decode body at a grid point, and the pipeline's proof data.

  At point `t` the body reads the 200 rows of `z` in window 0's buffer and all 10000 rows of `z` in window 1's, and
  stores into window 2's buffer, whole, the block `logistic (rows · zᵀ)` (the payload `k0_pay1`); it also reads the output
  buffer once and uses nothing of what it read. So after the body the two input buffers hold what they held, and the output
  buffer holds the payload of the two input blocks, whatever it held before: one store through the whole rectangle covers it.
  The proof data say exactly that, with `z` — one array behind windows 0 and 1 — held by window 0 at the left half of the
  full share and by window 1 at the right half.
-/
import proofs.«164066_j8186207666838_1_alg».proof.Proof.Kernel.Entry
import proofs.«164066_j8186207666838_1_alg».proof.Proof.Gen.Kernel.Skeleton
import proofs.«164066_j8186207666838_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the call finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is `V`'s and whose body leaves the block in place: where the point does not fetch, the block index has not moved.
    Window 0 (200 rows of `z`, fetched at every point): -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and window 1 (all of `z`, fetched at the first point only, its one buffer left in place afterwards). -/
theorem before_all_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer through its whole rectangle -/

abbrev rRows : Rect S200x64 := Rect.unit (s := S200x64) ![0, 0] S200x64.size inb_S200x64_S200x64_0_0
abbrev rAll : Rect S10000x64 := Rect.unit (s := S10000x64) ![0, 0] S10000x64.size inb_S10000x64_S10000x64_0_0
abbrev rOut : Rect S200x10000 := Rect.unit (s := S200x10000) ![0, 0] S200x10000.size inb_S200x10000_S200x10000_0_0

/-! ## What the body leaves in the output window's buffer -/

/-- The output buffer after the body, from the two input blocks: its one store, through the whole rectangle, of the
    payload `logistic (rows · zᵀ)`. -/
def adjBlock (x0 : Vec F S200x64 .f32) (x1 : Vec F S10000x64 .f32) : Vec F S200x10000 .f32 :=
  View.canon [⟨rOut, k0_pay1 (View.ld x0 rRows) (View.ld x1 rAll)⟩]

/-- That store covers the buffer. -/
theorem cover_out (p0 : Vec F S200x10000 .f32) (y : S200x10000.Idx) :
    ∃ pc ∈ ([⟨rOut, p0⟩] : List (View.Piece (Elt F) S200x10000 .f32)), y ∈ pc.1.set :=
  View.cover_of_tiled [⟨rOut, p0⟩] S200x10000.size (by rfl) y

/-! ## The body's triple -/

set_option maxHeartbeats 1000000 in
/-- On whole staging memrefs, the inputs' at read contents `x0`, `x1` and the output's at anything, the body runs to
    the continuation holding the inputs' as they were and the output's at `adjBlock x0 x1`. -/
theorem sound_kernel (c : Dev nD) (E : Set ℕ) (i : grid0.Coords) (arg1 : Memref sig .tc .vmem S200x64 .f32) (harg1 : arg1.IsWhole)
    (arg2 : Memref sig .tc .vmem S10000x64 .f32) (harg2 : arg2.IsWhole) (arg3 : Memref sig .tc .vmem S200x10000 .f32) (harg3 : arg3.IsWhole)
    (x0 : Vec F S200x64 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (adjBlock x0 x1)) -∗ K ⟨⟩))
      ⊢ wp frame (wpE (defs₀ (F := F)) Variants.none c none) E (cc0__decode_kernel i arg1 harg1 arg2 harg2 arg3 harg3) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the one pipeline on core `c`: the arrays as the call finds them (`V`); after the body at point
    `t` each input's buffer at its block and the output's at `adjBlock` of the two input blocks; the invariant the scoped
    rest and the generator register, untouched; nothing owed; `z` held by window 0 at the left half of the full share and by
    window 1 at the right half, the output array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjBlock (iblk m c 0 t) (iblk m c 1 t)
  Φ _ := Pipeline.ΦA spec0 c
  q w := match w with
    | ⟨0, _⟩ => fullShare.left
    | ⟨1, _⟩ => fullShare.right
    | ⟨2, _⟩ => fullShare
  owed _ := 0

/-- The proof data's arrays are the contents the call finds. -/
theorem A_eq (c : Dev nD) (w : Fin cfg0.W) : (dats m 0 c).A w = V m c (Pipeline.arrRef spec0 w) := by
  dsimp only [dats]

/-- What the body leaves, window by window. -/
theorem after_rows (c : Dev nD) (t : Fin cfg0.N) : (dats m 0 c).after 0 t = iblk m c 0 t := by dsimp only [dats]
theorem after_all (c : Dev nD) (t : Fin cfg0.N) : (dats m 0 c).after 1 t = iblk m c 1 t := by dsimp only [dats]
theorem after_out (c : Dev nD) (t : Fin cfg0.N) : (dats m 0 c).after 2 t = adjBlock (iblk m c 0 t) (iblk m c 1 t) := by dsimp only [dats]

/-- Each input's current staging buffer holds its block at every point. -/
theorem before_rows (c : Dev nD) (t : Fin cfg0.N) (d) : (dats m 0 c).before 0 t d = iblk m c 0 t :=
  before_rows_of m (dats m 0 c) (A_eq m c 0) (after_rows m c) t d
theorem before_all (c : Dev nD) (t : Fin cfg0.N) (d) : (dats m 0 c).before 1 t d = iblk m c 1 t :=
  before_all_of m (dats m 0 c) (A_eq m c 1) (after_all m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_all]
  rw [show (dats m 0 c).Φ t.succ = (dats m 0 c).Φ t.castSucc from rfl,
    show (dats m 0 c).owesAt () t.succ = (dats m 0 c).owesAt () t.castSucc from rfl,
    after_rows, after_all, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Decode

end
-- ==== Proof.LibSharedLaunch.lean ====
/-
  The run of a one-call TensorCore program whose pipelined call reads ONE array through SEVERAL input windows (a packed
  weight read as three column groups): the frame run of the pipeline library, with the arrays' distinctness replaced by
  the certificate's own account of how each shared array's full share is dealt among the windows on it.
-/
import Idealize.ShloMosaic.Lib.Pipeline.Frame

noncomputable section

namespace Idealize.ShloMosaic.Pipeline

open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {nD : Nat} {τ : Topo} {sig : RefSig} {Val : EltTy → Type} [∀ e, Nonempty (Val e)]
variable {Λ₀ : SL.Sem.Labels} {P : Type} [Fintype P] [DecidableEq P]

/-- THE FRAME RUN WHEN WINDOWS SHARE AN ARRAY. As the library's frame run with a tracking invariant
    (`θ_run_frame_track`), except that the windows' arrays need not be distinct (`WinFacts₀`) and, in place of "every
    array is held at the full share", the certificate shows how the distinct buffers behind the arrays, each whole at
    the full share at the entry contents (`arrBufs`), make up the proof data's `arrays` at entry (`hsplit`): a buffer
    read through several input windows is split among them, each window at the share the proof data names for it.
    Concludes the same post: every window's array at what the library computes from the proof data after all
    write-backs, every other unscoped buffer as the call found it. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp (MT nD τ sig Unit Val ℕ (UR sig nD τ) ℕ))
        ⊢ (dats p c).arrays ((dats p c).arrAt · 0))
    (hin : ∀ c, ΦA (cfgs p).spec c ⊢ (dats p c).Φ 0) (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  exact θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := initOf (cells cfgs hinj) (launchToks cfgs hinj))
    (hu₀ := by
      iintro Hu; imodintro
      isplitl [Hu]; · iapply (show (ownU _ : sProp (MT nD τ sig Unit Val ℕ (UR sig nD τ) ℕ)) ⊢ BI.own (emb₁ (initOf (cells cfgs hinj) (launchToks cfgs hinj))) from .rfl); iexact Hu
      iapply (show (BI.emp : sProp (MT nD τ sig Unit Val ℕ (UR sig nD τ) ℕ)) ⊢ bigSep Finset.univ (fun _ : Dev nD => (BI.emp : sProp (MT nD τ sig Unit Val ℕ (UR sig nD τ) ℕ))) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end Idealize.ShloMosaic.Pipeline

end
-- ==== Proof.Kernel.Run.lean ====
/-
  The run of the kernel's @main, and its frame.

  Windows 0 and 1 of the call read one array, `z`; window 2 writes the decoded matrix. So behind the three windows there
  are two buffers. The call is handed each whole, at the full share; window 0 takes the left half of `z`'s share and window 1
  the right half, each at `z`'s contents, and window 2 takes the decoded matrix's buffer whole. Both windows on `z` only
  read, so nothing more is needed to share it. With the body's obligation at every point this gives the run: @main
  terminates without a fault; the decoded matrix's buffer ends at its entry contents overwritten block by block by what the
  body left at each point; every other buffer that is no staging buffer — the means, the standard deviations, every
  argument — ends as the call found it; and the call found every argument as launched.
-/
import proofs.«164066_j8186207666838_1_alg».proof.Proof.Kernel.Body
import proofs.«164066_j8186207666838_1_alg».proof.Proof.LibSharedLaunch

set_option maxRecDepth 16384

noncomputable section

namespace Cert.Kernel.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The one array behind two windows -/

/-- Behind the three windows are two buffers: `z` (windows 0 and 1) and the decoded matrix (window 2). -/
theorem arr_bufs : Finset.univ.image (Pipeline.arrRef spec0) = {main_v95, main_v96} := by decide

/-- The buffers behind the windows, each whole at the full share at the contents the call finds, are the proof data's
    arrays at entry: `z`'s full share is the left half, taken by window 0, and the right half, taken by window 1. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arr_bufs, bigSep_insert (by decide), bigSep_singleton, bigSep_W0]
  have h0 : (((cfg0.win 0).arr.view.loc (c.tc : Thread nD τ)) ↦[(cfg0.win 0).arr.view.set]{(dats m 0 c).share 0} (dats m 0 c).arrAt 0 0 : sProp 𝕄)
      = (((c.tc : Thread nD τ).loc main_v95) ↦{fullShare.left} V m c main_v95) := by
    rw [(arr_whole0 0).set_eq_univ]; rfl
  have h1 : (((cfg0.win 1).arr.view.loc (c.tc : Thread nD τ)) ↦[(cfg0.win 1).arr.view.set]{(dats m 0 c).share 1} (dats m 0 c).arrAt 1 0 : sProp 𝕄)
      = (((c.tc : Thread nD τ).loc main_v95) ↦{fullShare.right} V m c main_v95) := by
    rw [(arr_whole0 1).set_eq_univ]; rfl
  have h2 : (((cfg0.win 2).arr.view.loc (c.tc : Thread nD τ)) ↦[(cfg0.win 2).arr.view.set]{(dats m 0 c).share 2} (dats m 0 c).arrAt 2 0 : sProp 𝕄)
      = (((c.tc : Thread nD τ).loc main_v96) ↦{fullShare} V m c main_v96) := by
    rw [(arr_whole0 2).set_eq_univ]; rfl
  rw [h0, h1, h2]
  refine (show iprop((((c.tc : Thread nD τ).loc main_v95) ↦{fullShare} V m c main_v95) ∗ (((c.tc : Thread nD τ).loc main_v96) ↦{fullShare} V m c main_v96))
      ⊢ (iprop((((c.tc : Thread nD τ).loc main_v95) ↦{fullShare.left} V m c main_v95)
          ∗ (((c.tc : Thread nD τ).loc main_v95) ↦{fullShare.right} V m c main_v95)
          ∗ (((c.tc : Thread nD τ).loc main_v96) ↦{fullShare} V m c main_v96)) : sProp 𝕄) from ?_)
  iintro ⟨Hz, Ho⟩
  ihave Hz' := (pointsTo_share (PosShare.mem_left_op_right fullShare)).1 $$ Hz
  icases Hz' with ⟨Hl, Hr⟩
  isplitl [Hl]; · iexact Hl
  isplitl [Hr]; · iexact Hr
  iexact Ho

/-! ## The run -/

set_option backward.isDefEq.respectTransparency.types false in
/-- From any memory with zero counters every weakly fair execution of @main terminates, and every final state has the
    decoded matrix's array at what the write-backs make of the proof data and every other unscoped buffer as the call
    found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun c => .rfl) (hout := fun c => .rfl)

/-- A buffer that is not scoped and is no window's array bypasses the call. -/
theorem bypasses (b : Ref sig .tc) (hs : b.isScoped = false) (ha : ∀ w : Fin 3, (spec0 w).arr.view.ref ≠ b) :
    b ∈ Pipeline.restRefs sig spec0 := Pipeline.mem_restRefs_of b hs ha

/-- The run read at the buffers the certificate speaks of: the decoded matrix at what the write-backs leave, the means
    and the standard deviations as the call found them, every argument as launched. -/
theorem run_read : θ_run defs (onTc (τ := τ) (main (F := F))) ⟨m, fun _ => 0, ρ⟩ (fun r => ∀ c : Dev nD,
      r.2.mem ((c.tc : Thread nD τ).loc main_v96) = (dats m 0 c).arrAt 2 cfg0.N
      ∧ r.2.mem ((c.tc : Thread nD τ).loc main_v61) = V m c main_v61
      ∧ r.2.mem ((c.tc : Thread nD τ).loc main_v93) = V m c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 2,
      (h c).2 main_v61 (bypasses main_v61 rfl (by decide)),
      (h c).2 main_v93 (bypasses main_v93 rfl (by decide)),
      ((h c).2 main_arg0 (bypasses main_arg0 rfl (by decide))).trans (V_main_arg0 m c),
      ((h c).2 main_arg1 (bypasses main_arg1 rfl (by decide))).trans (V_main_arg1 m c),
      ((h c).2 main_arg2 (bypasses main_arg2 rfl (by decide))).trans (V_main_arg2 m c),
      ((h c).2 main_arg3 (bypasses main_arg3 rfl (by decide))).trans (V_main_arg3 m c),
      ((h c).2 main_arg4 (bypasses main_arg4 rfl (by decide))).trans (V_main_arg4 m c),
      ((h c).2 main_arg5 (bypasses main_arg5 rfl (by decide))).trans (V_main_arg5 m c),
      ((h c).2 main_arg6 (bypasses main_arg6 rfl (by decide))).trans (V_main_arg6 m c),
      ((h c).2 main_arg7 (bypasses main_arg7 rfl (by decide))).trans (V_main_arg7 m c),
      ((h c).2 main_arg8 (bypasses main_arg8 rfl (by decide))).trans (V_main_arg8 m c),
      ((h c).2 main_arg9 (bypasses main_arg9 rfl (by decide))).trans (V_main_arg9 m c)⟩) (run_main m ρ)

/-- THE FRAME: @main terminates, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2.2.2) (run_read m ρ)

end Cert.Kernel.Decode

end
-- ==== Proof.KernelIdeal.Entry.lean ====
/-
  The kernel's @main up to its one pallas_call.

  Before the call @main runs thirteen stretches of host operations: three graph convolutions — the out- and in-degrees
  as scatter-adds of ones along the edges, clamped below at one, their inverse square roots scaling the rows before and
  after, a dense layer, a row gather at the edges' sources and a scatter-add at their targets, a bias row — and then
  `z = eps * exp logvar + mu`. The call therefore finds every buffer at the fold of those operations over the launch
  memory (`V`). Each operation writes one buffer of its own and none writes an argument, so the call finds every
  argument array as launched.
-/
import proofs.«164066_j8186207666838_1_alg».proof.Proof.Gen.KernelIdeal.Launch
import Idealize.ShloMosaic.Lib.Pipeline.Frame
import Idealize.ShloMosaic.Lib.StableHlo.Run

set_option maxRecDepth 16384

noncomputable section

namespace Cert.KernelIdeal.Decode

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The host operations before the call, stretch by stretch, in program order. -/
abbrev hostLines : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12]

variable (m : (ℓ : Loc nD τ sig) → Buf (Elt F) ℓ)

/-- Core `c`'s buffers when the call is entered: the launch memory after every host operation before it. -/
abbrev V (c : Dev nD) (b : Ref sig .tc) : Buf (Elt F) ((c : Thread nD τ).loc b) :=
  StableHlo.after (List.flatten hostLines) (fun b => m (c, b)) b

/-! ## No stretch declares a buffer of its own -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

/-! ## @main is those stretches, then the call -/

/-- Holding the unscoped buffers at the launch memory, @main reduces to the call holding them at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩)
    main_chain

/-! ## The arguments as the call finds them -/

/-- A buffer that is the result of no host operation before the call holds its launch contents there: the goal is
    read as one inequality of references per operation, each decided. -/
local macro "not_written_before_call" : tactic => `(tactic| (
  refine StableHlo.after_of_forall_not_mem _ _ (List.forall_iff_forall_mem.mp ?_)
  simp only [hostLines, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append, List.Forall, StableHlo.nullary_writes, StableHlo.unary_writes,
    StableHlo.binary_writes, StableHlo.ternary_writes, Finset.mem_singleton]
  repeat' apply And.intro
  all_goals exact StableHlo.devRef_ne_of_ne (by decide)))

theorem V_main_arg0 (c : Dev nD) : V m c main_arg0 = m ((c : Thread nD τ).loc main_arg0) := by
  show StableHlo.after (List.flatten hostLines) (fun b => m (c, b)) (Proc.devRef .tc main_arg0) = _
  not_written_before_call
theorem V_main_arg1 (c : Dev nD) : V m c main_arg1 = m ((c : Thread nD τ).loc main_arg1) := by
  show StableHlo.after (List.flatten hostLines) (fun b => m (c, b)) (Proc.devRef .tc main_arg1) = _
  not_written_before_call
theorem V_main_arg2 (c : Dev nD) : V m c main_arg2 = m ((c : Thread nD τ).loc main_arg2) := by
  show StableHlo.after (List.flatten hostLines) (fun b => m (c, b)) (Proc.devRef .tc main_arg2) = _
  not_written_before_call
theorem V_main_arg3 (c : Dev nD) : V m c main_arg3 = m ((c : Thread nD τ).loc main_arg3) := by
  show StableHlo.after (List.flatten hostLines) (fun b => m (c, b)) (Proc.devRef .tc main_arg3) = _
  not_written_before_call
theorem V_main_arg4 (c : Dev nD) : V m c main_arg4 = m ((c : Thread nD τ).loc main_arg4) := by
  show StableHlo.after (List.flatten hostLines) (fun b => m (c, b)) (Proc.devRef .tc main_arg4) = _
  not_written_before_call
theorem V_main_arg5 (c : Dev nD) : V m c main_arg5 = m ((c : Thread nD τ).loc main_arg5) := by
  show StableHlo.after (List.flatten hostLines) (fun b => m (c, b)) (Proc.devRef .tc main_arg5) = _
  not_written_before_call
theorem V_main_arg6 (c : Dev nD) : V m c main_arg6 = m ((c : Thread nD τ).loc main_arg6) := by
  show StableHlo.after (List.flatten hostLines) (fun b => m (c, b)) (Proc.devRef .tc main_arg6) = _
  not_written_before_call
theorem V_main_arg7 (c : Dev nD) : V m c main_arg7 = m ((c : Thread nD τ).loc main_arg7) := by
  show StableHlo.after (List.flatten hostLines) (fun b => m (c, b)) (Proc.devRef .tc main_arg7) = _
  not_written_before_call
theorem V_main_arg8 (c : Dev nD) : V m c main_arg8 = m ((c : Thread nD τ).loc main_arg8) := by
  show StableHlo.after (List.flatten hostLines) (fun b => m (c, b)) (Proc.devRef .tc main_arg8) = _
  not_written_before_call
theorem V_main_arg9 (c : Dev nD) : V m c main_arg9 = m ((c : Thread nD τ).loc main_arg9) := by
  show StableHlo.after (List.flatten hostLines) (fun b => m (c, b)) (Proc.devRef .tc main_arg9) = _
  not_written_before_call

end Cert.KernelIdeal.Decode

end
-- ==== Proof.KernelIdeal.Body.lean ====
/-
  The decode body at a grid point, and the pipeline's proof data.

  At point `t` the body reads the 200 rows of `z` in window 0's buffer and all 10000 rows of `z` in window 1's, and
  stores into window 2's buffer, whole, the block `logistic (rows · zᵀ)` (the payload `k0_pay1`); it also reads the output
  buffer once and uses nothing of what it read. So after the body the two input buffers hold what they held, and the output
  buffer holds the payload of the two input blocks, whatever it held before: one store through the whole rectangle covers it.
  The proof data say exactly that, with `z` — one array behind windows 0 and 1 — held by window 0 at the left half of the
  full share and by window 1 at the right half.
-/
import proofs.«164066_j8186207666838_1_alg».proof.Proof.KernelIdeal.Entry
import proofs.«164066_j8186207666838_1_alg».proof.Proof.Gen.KernelIdeal.Skeleton
import proofs.«164066_j8186207666838_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the call finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is `V`'s and whose body leaves the block in place: where the point does not fetch, the block index has not moved.
    Window 0 (200 rows of `z`, fetched at every point): -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and window 1 (all of `z`, fetched at the first point only, its one buffer left in place afterwards). -/
theorem before_all_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer through its whole rectangle -/

abbrev rRows : Rect S200x64 := Rect.unit (s := S200x64) ![0, 0] S200x64.size inb_S200x64_S200x64_0_0
abbrev rAll : Rect S10000x64 := Rect.unit (s := S10000x64) ![0, 0] S10000x64.size inb_S10000x64_S10000x64_0_0
abbrev rOut : Rect S200x10000 := Rect.unit (s := S200x10000) ![0, 0] S200x10000.size inb_S200x10000_S200x10000_0_0

/-! ## What the body leaves in the output window's buffer -/

/-- The output buffer after the body, from the two input blocks: its one store, through the whole rectangle, of the
    payload `logistic (rows · zᵀ)`. -/
def adjBlock (x0 : Vec F S200x64 .f32) (x1 : Vec F S10000x64 .f32) : Vec F S200x10000 .f32 :=
  View.canon [⟨rOut, k0_pay1 (View.ld x0 rRows) (View.ld x1 rAll)⟩]

/-- That store covers the buffer. -/
theorem cover_out (p0 : Vec F S200x10000 .f32) (y : S200x10000.Idx) :
    ∃ pc ∈ ([⟨rOut, p0⟩] : List (View.Piece (Elt F) S200x10000 .f32)), y ∈ pc.1.set :=
  View.cover_of_tiled [⟨rOut, p0⟩] S200x10000.size (by rfl) y

/-! ## The body's triple -/

set_option maxHeartbeats 1000000 in
/-- On whole staging memrefs, the inputs' at read contents `x0`, `x1` and the output's at anything, the body runs to
    the continuation holding the inputs' as they were and the output's at `adjBlock x0 x1`. -/
theorem sound_kernel (c : Dev nD) (E : Set ℕ) (i : grid0.Coords) (arg1 : Memref sig .tc .vmem S200x64 .f32) (harg1 : arg1.IsWhole)
    (arg2 : Memref sig .tc .vmem S10000x64 .f32) (harg2 : arg2.IsWhole) (arg3 : Memref sig .tc .vmem S200x10000 .f32) (harg3 : arg3.IsWhole)
    (x0 : Vec F S200x64 .f32) (x1 : Vec F S10000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (adjBlock x0 x1)) -∗ K ⟨⟩))
      ⊢ wp frame (wpE (defs₀ (F := F)) Variants.none c none) E (cc0__decode_kernel i arg1 harg1 arg2 harg2 arg3 harg3) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the one pipeline on core `c`: the arrays as the call finds them (`V`); after the body at point
    `t` each input's buffer at its block and the output's at `adjBlock` of the two input blocks; the invariant the scoped
    rest and the generator register, untouched; nothing owed; `z` held by window 0 at the left half of the full share and by
    window 1 at the right half, the output array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjBlock (iblk m c 0 t) (iblk m c 1 t)
  Φ _ := Pipeline.ΦA spec0 c
  q w := match w with
    | ⟨0, _⟩ => fullShare.left
    | ⟨1, _⟩ => fullShare.right
    | ⟨2, _⟩ => fullShare
  owed _ := 0

/-- The proof data's arrays are the contents the call finds. -/
theorem A_eq (c : Dev nD) (w : Fin cfg0.W) : (dats m 0 c).A w = V m c (Pipeline.arrRef spec0 w) := by
  dsimp only [dats]

/-- What the body leaves, window by window. -/
theorem after_rows (c : Dev nD) (t : Fin cfg0.N) : (dats m 0 c).after 0 t = iblk m c 0 t := by dsimp only [dats]
theorem after_all (c : Dev nD) (t : Fin cfg0.N) : (dats m 0 c).after 1 t = iblk m c 1 t := by dsimp only [dats]
theorem after_out (c : Dev nD) (t : Fin cfg0.N) : (dats m 0 c).after 2 t = adjBlock (iblk m c 0 t) (iblk m c 1 t) := by dsimp only [dats]

/-- Each input's current staging buffer holds its block at every point. -/
theorem before_rows (c : Dev nD) (t : Fin cfg0.N) (d) : (dats m 0 c).before 0 t d = iblk m c 0 t :=
  before_rows_of m (dats m 0 c) (A_eq m c 0) (after_rows m c) t d
theorem before_all (c : Dev nD) (t : Fin cfg0.N) (d) : (dats m 0 c).before 1 t d = iblk m c 1 t :=
  before_all_of m (dats m 0 c) (A_eq m c 1) (after_all m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_all]
  rw [show (dats m 0 c).Φ t.succ = (dats m 0 c).Φ t.castSucc from rfl,
    show (dats m 0 c).owesAt () t.succ = (dats m 0 c).owesAt () t.castSucc from rfl,
    after_rows, after_all, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Decode

end
-- ==== Proof.KernelIdeal.Run.lean ====
/-
  The run of the kernel's @main, and its frame.

  Windows 0 and 1 of the call read one array, `z`; window 2 writes the decoded matrix. So behind the three windows there
  are two buffers. The call is handed each whole, at the full share; window 0 takes the left half of `z`'s share and window 1
  the right half, each at `z`'s contents, and window 2 takes the decoded matrix's buffer whole. Both windows on `z` only
  read, so nothing more is needed to share it. With the body's obligation at every point this gives the run: @main
  terminates without a fault; the decoded matrix's buffer ends at its entry contents overwritten block by block by what the
  body left at each point; every other buffer that is no staging buffer — the means, the standard deviations, every
  argument — ends as the call found it; and the call found every argument as launched.
-/
import proofs.«164066_j8186207666838_1_alg».proof.Proof.KernelIdeal.Body
import proofs.«164066_j8186207666838_1_alg».proof.Proof.LibSharedLaunch

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The one array behind two windows -/

/-- Behind the three windows are two buffers: `z` (windows 0 and 1) and the decoded matrix (window 2). -/
theorem arr_bufs : Finset.univ.image (Pipeline.arrRef spec0) = {main_v95, main_v96} := by decide

/-- The buffers behind the windows, each whole at the full share at the contents the call finds, are the proof data's
    arrays at entry: `z`'s full share is the left half, taken by window 0, and the right half, taken by window 1. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arr_bufs, bigSep_insert (by decide), bigSep_singleton, bigSep_W0]
  have h0 : (((cfg0.win 0).arr.view.loc (c.tc : Thread nD τ)) ↦[(cfg0.win 0).arr.view.set]{(dats m 0 c).share 0} (dats m 0 c).arrAt 0 0 : sProp 𝕄)
      = (((c.tc : Thread nD τ).loc main_v95) ↦{fullShare.left} V m c main_v95) := by
    rw [(arr_whole0 0).set_eq_univ]; rfl
  have h1 : (((cfg0.win 1).arr.view.loc (c.tc : Thread nD τ)) ↦[(cfg0.win 1).arr.view.set]{(dats m 0 c).share 1} (dats m 0 c).arrAt 1 0 : sProp 𝕄)
      = (((c.tc : Thread nD τ).loc main_v95) ↦{fullShare.right} V m c main_v95) := by
    rw [(arr_whole0 1).set_eq_univ]; rfl
  have h2 : (((cfg0.win 2).arr.view.loc (c.tc : Thread nD τ)) ↦[(cfg0.win 2).arr.view.set]{(dats m 0 c).share 2} (dats m 0 c).arrAt 2 0 : sProp 𝕄)
      = (((c.tc : Thread nD τ).loc main_v96) ↦{fullShare} V m c main_v96) := by
    rw [(arr_whole0 2).set_eq_univ]; rfl
  rw [h0, h1, h2]
  refine (show iprop((((c.tc : Thread nD τ).loc main_v95) ↦{fullShare} V m c main_v95) ∗ (((c.tc : Thread nD τ).loc main_v96) ↦{fullShare} V m c main_v96))
      ⊢ (iprop((((c.tc : Thread nD τ).loc main_v95) ↦{fullShare.left} V m c main_v95)
          ∗ (((c.tc : Thread nD τ).loc main_v95) ↦{fullShare.right} V m c main_v95)
          ∗ (((c.tc : Thread nD τ).loc main_v96) ↦{fullShare} V m c main_v96)) : sProp 𝕄) from ?_)
  iintro ⟨Hz, Ho⟩
  ihave Hz' := (pointsTo_share (PosShare.mem_left_op_right fullShare)).1 $$ Hz
  icases Hz' with ⟨Hl, Hr⟩
  isplitl [Hl]; · iexact Hl
  isplitl [Hr]; · iexact Hr
  iexact Ho

/-! ## The run -/

set_option backward.isDefEq.respectTransparency.types false in
/-- From any memory with zero counters every weakly fair execution of @main terminates, and every final state has the
    decoded matrix's array at what the write-backs make of the proof data and every other unscoped buffer as the call
    found it. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := fun c => .rfl) (hout := fun c => .rfl)

/-- A buffer that is not scoped and is no window's array bypasses the call. -/
theorem bypasses (b : Ref sig .tc) (hs : b.isScoped = false) (ha : ∀ w : Fin 3, (spec0 w).arr.view.ref ≠ b) :
    b ∈ Pipeline.restRefs sig spec0 := Pipeline.mem_restRefs_of b hs ha

/-- The run read at the buffers the certificate speaks of: the decoded matrix at what the write-backs leave, the means
    and the standard deviations as the call found them, every argument as launched. -/
theorem run_read : θ_run defs (onTc (τ := τ) (main (F := F))) ⟨m, fun _ => 0, ρ⟩ (fun r => ∀ c : Dev nD,
      r.2.mem ((c.tc : Thread nD τ).loc main_v96) = (dats m 0 c).arrAt 2 cfg0.N
      ∧ r.2.mem ((c.tc : Thread nD τ).loc main_v61) = V m c main_v61
      ∧ r.2.mem ((c.tc : Thread nD τ).loc main_v93) = V m c main_v93
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 2,
      (h c).2 main_v61 (bypasses main_v61 rfl (by decide)),
      (h c).2 main_v93 (bypasses main_v93 rfl (by decide)),
      ((h c).2 main_arg0 (bypasses main_arg0 rfl (by decide))).trans (V_main_arg0 m c),
      ((h c).2 main_arg1 (bypasses main_arg1 rfl (by decide))).trans (V_main_arg1 m c),
      ((h c).2 main_arg2 (bypasses main_arg2 rfl (by decide))).trans (V_main_arg2 m c),
      ((h c).2 main_arg3 (bypasses main_arg3 rfl (by decide))).trans (V_main_arg3 m c),
      ((h c).2 main_arg4 (bypasses main_arg4 rfl (by decide))).trans (V_main_arg4 m c),
      ((h c).2 main_arg5 (bypasses main_arg5 rfl (by decide))).trans (V_main_arg5 m c),
      ((h c).2 main_arg6 (bypasses main_arg6 rfl (by decide))).trans (V_main_arg6 m c),
      ((h c).2 main_arg7 (bypasses main_arg7 rfl (by decide))).trans (V_main_arg7 m c),
      ((h c).2 main_arg8 (bypasses main_arg8 rfl (by decide))).trans (V_main_arg8 m c),
      ((h c).2 main_arg9 (bypasses main_arg9 rfl (by decide))).trans (V_main_arg9 m c)⟩) (run_main m ρ)

/-- THE FRAME: @main terminates, faults nowhere, and leaves every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2.2.2) (run_read m ρ)

end Cert.KernelIdeal.Decode

end
-- ==== Proof.LibBatchedRowDot.lean ====
/-
  General lemmas about a contraction of the LAST axes of two operands, read at the extended reals.

  * `RowDot`: a dot whose dimension numbers contract axis 1 of an [M, K] operand with axis 1 of an [N, K]
    operand, with no batch axis (a matrix times the transpose of another), has at the output entry (p, q) the
    operand entries (p, k) and (q, k) at contraction position k: its value there is the sum over k of
    l (p, k) · r (q, k). Stated for a kernel's matrix product into a zero accumulator.
  * `BatchedRowDot`: the same under one leading batch axis: [B, M, K] with [B, N, K], batch axis 0 on both
    sides, contracting axis 2 with axis 2; the entry (e, p, q) is the sum over k of l (e, p, k) · r (e, q, k).
    Stated for the host's dot_general.
  Both hold for every record with those dimension numbers, whatever its well-formedness proof.

  How each is obtained. The contraction's entry is a sum over the contraction index set, whose one axis has
  extent K; that index set is identified with the range of k. The operand indices are read axis by axis: an
  operand's batch axis carries the output's batch coordinate, its free axis carries the output coordinate of
  that operand's row, and its contracted axis carries k. With the dimension lists written out, every record
  with those lists is the written-out record at its own well-formedness proof, so the general statements
  follow from the written-out ones.
-/
import Idealize.ShloMosaic.PureOps.Ideal.Laws
import Idealize.ShloMosaic.Lib.ValueIdx

noncomputable section

namespace Idealize.ShloMosaic.RowDot

open Idealize.ShloMosaic Idealize.ShloMosaic.ValueIdx
open scoped BigOperators

variable {B M K N : Nat}

/-! ## A matrix times the transpose of another: [M, K] with [N, K], contracting the last axes -/

/-- The record with the dimension numbers of a product with a transposed right operand, at any well-formedness proof. -/
abbrev mkT (wf : DotDims.WF (⟨2, ![M, K]⟩ : Shape) (⟨2, ![N, K]⟩ : Shape) (⟨2, ![M, N]⟩ : Shape) [1] [1] [0] [0] [] []) :
    DotDims (⟨2, ![M, K]⟩ : Shape) (⟨2, ![N, K]⟩ : Shape) (⟨2, ![M, N]⟩ : Shape) :=
  ⟨[1], [1], [0], [0], [], [], wf⟩

section
variable (wf : DotDims.WF (⟨2, ![M, K]⟩ : Shape) (⟨2, ![N, K]⟩ : Shape) (⟨2, ![M, N]⟩ : Shape) [1] [1] [0] [0] [] [])

/-- The left operand's row coordinate is the output's row coordinate. -/
theorem lhsT0 (j : (⟨2, ![M, N]⟩ : Shape).Idx) (q : (mkT wf).contr.Idx) : ((mkT wf).lhsIdx j q 0).val = (j 0).val := by
  unfold DotDims.lhsIdx
  rw [dif_neg (show ¬(0 : Fin (⟨2, ![M, K]⟩ : Shape).rank) ∈ (mkT wf).lhsBatch from List.not_mem_nil),
    dif_pos (show (0 : Fin (⟨2, ![M, K]⟩ : Shape).rank) ∈ (mkT wf).lhsNonContracting from List.mem_singleton_self _)]
  rfl

/-- The left operand's column coordinate is the contraction position. -/
theorem lhsT1 (j : (⟨2, ![M, N]⟩ : Shape).Idx) (q : (mkT wf).contr.Idx) : ((mkT wf).lhsIdx j q 1).val = (q ⟨0, Nat.one_pos⟩).val :=
  (mkT wf).lhsIdx_val_of_single rfl j q

/-- The right operand's row coordinate is the output's column coordinate. -/
theorem rhsT0 (j : (⟨2, ![M, N]⟩ : Shape).Idx) (q : (mkT wf).contr.Idx) : ((mkT wf).rhsIdx j q 0).val = (j 1).val := by
  unfold DotDims.rhsIdx
  rw [dif_neg (show ¬(0 : Fin (⟨2, ![N, K]⟩ : Shape).rank) ∈ (mkT wf).rhsBatch from List.not_mem_nil),
    dif_pos (show (0 : Fin (⟨2, ![N, K]⟩ : Shape).rank) ∈ (mkT wf).rhsNonContracting from List.mem_singleton_self _)]
  rfl

/-- The right operand's column coordinate is the contraction position. -/
theorem rhsT1 (j : (⟨2, ![M, N]⟩ : Shape).Idx) (q : (mkT wf).contr.Idx) : ((mkT wf).rhsIdx j q 1).val = (q ⟨0, Nat.one_pos⟩).val :=
  (mkT wf).rhsIdx_val_of_single rfl j q

/-- The contraction sum at the entry (p, q): over k, the left entry (p, k) times the right entry (q, k). -/
theorem sum_mkT {α : Type} [AddCommMonoid α] [Mul α] (l : (⟨2, ![M, K]⟩ : Shape).Idx → α) (r : (⟨2, ![N, K]⟩ : Shape).Idx → α)
    (p : Fin M) (q : Fin N) :
    ∑ k : (mkT wf).contr.Idx, l ((mkT wf).lhsIdx (ix2 p q) k) * r ((mkT wf).rhsIdx (ix2 p q) k)
      = ∑ k : Fin K, l (ix2 p k) * r (ix2 q k) := by
  rw [← Equiv.sum_comp (contrEquiv1 (mkT wf) K rfl rfl).symm]
  refine Finset.sum_congr rfl fun k _ => ?_
  have hk := contrEquiv1_symm_val (mkT wf) K rfl rfl k
  have el : (mkT wf).lhsIdx (ix2 p q) ((contrEquiv1 (mkT wf) K rfl rfl).symm k) = ix2 p k := funext fun a => Fin.ext (by
    match a with
    | ⟨0, _⟩ => exact lhsT0 wf _ _
    | ⟨1, _⟩ => exact (lhsT1 wf _ _).trans hk)
  have er : (mkT wf).rhsIdx (ix2 p q) ((contrEquiv1 (mkT wf) K rfl rfl).symm k) = ix2 q k := funext fun a => Fin.ext (by
    match a with
    | ⟨0, _⟩ => exact rhsT0 wf _ _
    | ⟨1, _⟩ => exact (rhsT1 wf _ _).trans hk)
  rw [el, er]
end

/-- Every record whose dimension numbers are those of the product with a transposed right operand is `mkT` of its own
    well-formedness proof, so its contraction sum is the same. -/
theorem sum_of_transposed {α : Type} [AddCommMonoid α] [Mul α]
    (D : DotDims (⟨2, ![M, K]⟩ : Shape) (⟨2, ![N, K]⟩ : Shape) (⟨2, ![M, N]⟩ : Shape))
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → α) (r : (⟨2, ![N, K]⟩ : Shape).Idx → α) (p : Fin M) (q : Fin N) :
    ∑ k : D.contr.Idx, l (D.lhsIdx (ix2 p q) k) * r (D.rhsIdx (ix2 p q) k) = ∑ k : Fin K, l (ix2 p k) * r (ix2 q k) := by
  obtain ⟨lc, rc, ln, rn, lb, rb, wf⟩ := D
  simp only at h1 h2 h3 h4 h5 h6
  subst h1 h2 h3 h4 h5 h6
  exact sum_mkT wf l r p q

/-- A kernel's product of an [M, K] matrix with the transpose of an [N, K] matrix, into the zero accumulator, at the entry (p, q). -/
theorem matmul_zero_apply {φ₁ φ₂ : FTy}
    (D : DotDims (⟨2, ![M, K]⟩ : Shape) (⟨2, ![N, K]⟩ : Shape) (⟨2, ![M, N]⟩ : Shape))
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal (⟨2, ![M, K]⟩ : Shape) φ₁) (r : FVec Ideal (⟨2, ![N, K]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 q k) : EReal) :=
  (Ideal.matmul_constant_zero_apply D prec l r (ix2 p q)).trans
    (sum_of_transposed (α := EReal) D h1 h2 h3 h4 h5 h6 l r p q)

/-! ## The same under a leading batch axis: [B, M, K] with [B, N, K] -/

/-- Axis 1 is not the batch axis 0. -/
theorem one_not_mem_batch : ¬ (1 : Fin 3) ∈ ([0] : List (Fin 3)) := by decide

/-- The record with the dimension numbers of the batched product with a transposed right operand, at any well-formedness proof. -/
abbrev mkB (wf : DotDims.WF (⟨3, ![B, M, K]⟩ : Shape) (⟨3, ![B, N, K]⟩ : Shape) (⟨3, ![B, M, N]⟩ : Shape) [2] [2] [1] [1] [0] [0]) :
    DotDims (⟨3, ![B, M, K]⟩ : Shape) (⟨3, ![B, N, K]⟩ : Shape) (⟨3, ![B, M, N]⟩ : Shape) :=
  ⟨[2], [2], [1], [1], [0], [0], wf⟩

section
variable (wf : DotDims.WF (⟨3, ![B, M, K]⟩ : Shape) (⟨3, ![B, N, K]⟩ : Shape) (⟨3, ![B, M, N]⟩ : Shape) [2] [2] [1] [1] [0] [0])

/-- The left operand's batch coordinate is the output's batch coordinate. -/
theorem lhsB0 (j : (⟨3, ![B, M, N]⟩ : Shape).Idx) (q : (mkB wf).contr.Idx) : ((mkB wf).lhsIdx j q 0).val = (j 0).val := by
  unfold DotDims.lhsIdx
  rw [dif_pos (show (0 : Fin (⟨3, ![B, M, K]⟩ : Shape).rank) ∈ (mkB wf).lhsBatch from List.mem_singleton_self _)]
  rfl

/-- The left operand's row coordinate is the output's row coordinate. -/
theorem lhsB1 (j : (⟨3, ![B, M, N]⟩ : Shape).Idx) (q : (mkB wf).contr.Idx) : ((mkB wf).lhsIdx j q 1).val = (j 1).val := by
  unfold DotDims.lhsIdx
  rw [dif_neg (show ¬(1 : Fin (⟨3, ![B, M, K]⟩ : Shape).rank) ∈ (mkB wf).lhsBatch from one_not_mem_batch),
    dif_pos (show (1 : Fin (⟨3, ![B, M, K]⟩ : Shape).rank) ∈ (mkB wf).lhsNonContracting from List.mem_singleton_self _)]
  rfl

/-- The left operand's last coordinate is the contraction position. -/
theorem lhsB2 (j : (⟨3, ![B, M, N]⟩ : Shape).Idx) (q : (mkB wf).contr.Idx) : ((mkB wf).lhsIdx j q 2).val = (q ⟨0, Nat.one_pos⟩).val :=
  (mkB wf).lhsIdx_val_of_single rfl j q

/-- The right operand's batch coordinate is the output's batch coordinate. -/
theorem rhsB0 (j : (⟨3, ![B, M, N]⟩ : Shape).Idx) (q : (mkB wf).contr.Idx) : ((mkB wf).rhsIdx j q 0).val = (j 0).val := by
  unfold DotDims.rhsIdx
  rw [dif_pos (show (0 : Fin (⟨3, ![B, N, K]⟩ : Shape).rank) ∈ (mkB wf).rhsBatch from List.mem_singleton_self _)]
  rfl

/-- The right operand's row coordinate is the output's column coordinate. -/
theorem rhsB1 (j : (⟨3, ![B, M, N]⟩ : Shape).Idx) (q : (mkB wf).contr.Idx) : ((mkB wf).rhsIdx j q 1).val = (j 2).val := by
  unfold DotDims.rhsIdx
  rw [dif_neg (show ¬(1 : Fin (⟨3, ![B, N, K]⟩ : Shape).rank) ∈ (mkB wf).rhsBatch from one_not_mem_batch),
    dif_pos (show (1 : Fin (⟨3, ![B, N, K]⟩ : Shape).rank) ∈ (mkB wf).rhsNonContracting from List.mem_singleton_self _)]
  rfl

/-- The right operand's last coordinate is the contraction position. -/
theorem rhsB2 (j : (⟨3, ![B, M, N]⟩ : Shape).Idx) (q : (mkB wf).contr.Idx) : ((mkB wf).rhsIdx j q 2).val = (q ⟨0, Nat.one_pos⟩).val :=
  (mkB wf).rhsIdx_val_of_single rfl j q

/-- The contraction sum at the entry (e, p, q): over k, the left entry (e, p, k) times the right entry (e, q, k). -/
theorem sum_mkB {α : Type} [AddCommMonoid α] [Mul α] (l : (⟨3, ![B, M, K]⟩ : Shape).Idx → α) (r : (⟨3, ![B, N, K]⟩ : Shape).Idx → α)
    (e : Fin B) (p : Fin M) (q : Fin N) :
    ∑ k : (mkB wf).contr.Idx, l ((mkB wf).lhsIdx (ix3 e p q) k) * r ((mkB wf).rhsIdx (ix3 e p q) k)
      = ∑ k : Fin K, l (ix3 e p k) * r (ix3 e q k) := by
  rw [← Equiv.sum_comp (contrEquiv1 (mkB wf) K rfl rfl).symm]
  refine Finset.sum_congr rfl fun k _ => ?_
  have hk := contrEquiv1_symm_val (mkB wf) K rfl rfl k
  have el : (mkB wf).lhsIdx (ix3 e p q) ((contrEquiv1 (mkB wf) K rfl rfl).symm k) = ix3 e p k := funext fun a => Fin.ext (by
    match a with
    | ⟨0, _⟩ => exact lhsB0 wf _ _
    | ⟨1, _⟩ => exact lhsB1 wf _ _
    | ⟨2, _⟩ => exact (lhsB2 wf _ _).trans hk)
  have er : (mkB wf).rhsIdx (ix3 e p q) ((contrEquiv1 (mkB wf) K rfl rfl).symm k) = ix3 e q k := funext fun a => Fin.ext (by
    match a with
    | ⟨0, _⟩ => exact rhsB0 wf _ _
    | ⟨1, _⟩ => exact rhsB1 wf _ _
    | ⟨2, _⟩ => exact (rhsB2 wf _ _).trans hk)
  rw [el, er]
end

/-- Every record whose dimension numbers are the batched product's is `mkB` of its own well-formedness proof, so its
    contraction sum is the same. -/
theorem sum_of_batched {α : Type} [AddCommMonoid α] [Mul α]
    (D : DotDims (⟨3, ![B, M, K]⟩ : Shape) (⟨3, ![B, N, K]⟩ : Shape) (⟨3, ![B, M, N]⟩ : Shape))
    (h1 : D.lhsContracting = [2]) (h2 : D.rhsContracting = [2]) (h3 : D.lhsNonContracting = [1])
    (h4 : D.rhsNonContracting = [1]) (h5 : D.lhsBatch = [0]) (h6 : D.rhsBatch = [0])
    (l : (⟨3, ![B, M, K]⟩ : Shape).Idx → α) (r : (⟨3, ![B, N, K]⟩ : Shape).Idx → α) (e : Fin B) (p : Fin M) (q : Fin N) :
    ∑ k : D.contr.Idx, l (D.lhsIdx (ix3 e p q) k) * r (D.rhsIdx (ix3 e p q) k)
      = ∑ k : Fin K, l (ix3 e p k) * r (ix3 e q k) := by
  obtain ⟨lc, rc, ln, rn, lb, rb, wf⟩ := D
  simp only at h1 h2 h3 h4 h5 h6
  subst h1 h2 h3 h4 h5 h6
  exact sum_mkB wf l r e p q

/-- The host's dot_general of [B, M, K] with [B, N, K] over the last axes, batched over the first, at the entry (e, p, q). -/
theorem dotGeneral_batched_apply {φ₁ φ₂ : FTy}
    (D : DotDims (⟨3, ![B, M, K]⟩ : Shape) (⟨3, ![B, N, K]⟩ : Shape) (⟨3, ![B, M, N]⟩ : Shape))
    (h1 : D.lhsContracting = [2]) (h2 : D.rhsContracting = [2]) (h3 : D.lhsNonContracting = [1])
    (h4 : D.rhsNonContracting = [1]) (h5 : D.lhsBatch = [0]) (h6 : D.rhsBatch = [0])
    (prec : Option ContractPrecision) (sched : HostSchedule)
    (l : FVec Ideal (⟨3, ![B, M, K]⟩ : Shape) φ₁) (r : FVec Ideal (⟨3, ![B, N, K]⟩ : Shape) φ₂)
    (e : Fin B) (p : Fin M) (q : Fin N) :
    FloatOps.dotGeneral D prec sched l r (ix3 e p q)
      = ∑ k : Fin K, (l (ix3 e p k) : EReal) * (r (ix3 e q k) : EReal) :=
  (Ideal.dotGeneral_apply D prec sched l r (ix3 e p q)).trans
    (sum_of_batched (α := EReal) D h1 h2 h3 h4 h5 h6 l r e p q)

end Idealize.ShloMosaic.RowDot

end
-- ==== Proof.DecodeSpec.lean ====
/-
  The decode step as one function on the extended reals.

  From a node embedding `z` (10000 rows of 64 numbers) the decoder makes the dense matrix whose entry (p, q) is the
  logistic function of the inner product of rows p and q: `adj z (p, q) = logistic (∑ k, z (p, k) · z (q, k))`, where
  `logistic x = 1 / (1 + exp (-x))` on the extended reals (0 at -∞ and 1 at +∞). A program that spells the logistic function
  out as a negation, an exponential, the sum with the float 1.0 and the quotient of the float 1.0 by that sum computes
  the same number at every extended real: the float 1.0 is the real one, and the rest is the definition.
-/
import Idealize.ShloMosaic.PureOps.Ideal
import Idealize.ShloMosaic.Lib.ValueIdx

noncomputable section

namespace Cert.DecodeSpec

open Idealize.ShloMosaic Idealize.ShloMosaic.ValueIdx
open scoped BigOperators

/-- The decoded matrix at the entry (p, q). -/
def adjAt (z : FVec Ideal (⟨2, ![10000, 64]⟩ : Shape) .f32) (p q : Fin 10000) : EReal :=
  Ideal.logistic (∑ k : Fin 64, (z (ix2 p k) : EReal) * (z (ix2 q k) : EReal))

/-- The decoded matrix. -/
def adj (z : FVec Ideal (⟨2, ![10000, 64]⟩ : Shape) .f32) : FVec Ideal (⟨2, ![10000, 10000]⟩ : Shape) .f32 :=
  fun i => adjAt z (i 0) (i 1)

theorem adj_apply (z : FVec Ideal (⟨2, ![10000, 64]⟩ : Shape) .f32) (p q : Fin 10000) : adj z (ix2 p q) = adjAt z p q := rfl

/-- The float 1.0 is the real number one. -/
theorem one_f32 : Ideal.ofBits .f32 0x3F800000#32 = 1 := by
  simp [Ideal.ofBits, Ideal.ieee, -EReal.coe_mul]; norm_num

/-- The logistic function spelt as a host program spells it — negate, exponential, add the float 1.0, divide the float
    1.0 by the sum — is the logistic function, at every extended real. -/
theorem host_spelling (s : Ideal .f32) :
    FloatOps.hostDivf (FloatOps.ofBits .f32 0x3F800000#32 : Ideal .f32)
        (FloatOps.addf (FloatOps.ofBits .f32 0x3F800000#32 : Ideal .f32) (FloatOps.hostUnary .exp (FloatOps.hostNegf s)))
      = Ideal.logistic s := by
  have h : (FloatOps.ofBits .f32 0x3F800000#32 : Ideal .f32) = 1 := one_f32
  rw [h]
  rfl

end Cert.DecodeSpec

end
-- ==== Proof.KernelIdeal.Value.lean ====
/-
  What the decoded matrix's array holds after the run, at the extended reals.

  At a grid point the body leaves in the output buffer the payload of its two input blocks; read at the entry (p, q) of the
  block that is `logistic (∑ k, rows (p, k) · all (q, k))`: the two casts to a narrower float format and the two casts of a
  shape to itself are the identity, and the matrix product into the zero accumulator, contracting the last axis of both
  operands, is that sum. Point `t`'s first input block is rows `200 t … 200 t + 199` of `z`, its second all of `z`, and
  its output block rows `200 t … 200 t + 199` of the result, every column. So what point `t` writes back is its block of
  `adj z` (the specification's function of `z` as the call finds it); the fifty blocks tile the 10000 rows; hence the array
  ends as `adj z`.
-/
import proofs.«164066_j8186207666838_1_alg».proof.Proof.KernelIdeal.Run
import proofs.«164066_j8186207666838_1_alg».proof.Proof.LibBatchedRowDot
import proofs.«164066_j8186207666838_1_alg».proof.Proof.DecodeSpec
import Idealize.ShloMosaic.Lib.ValueIdx
import Idealize.ShloMosaic.Lib.Pipeline.Value

set_option maxRecDepth 16384

noncomputable section

namespace Cert.KernelIdeal.Decode

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The payload at an entry -/

/-- The body's payload at the entry (p, q): the logistic function of the inner product of row p of the first block and
    row q of the second. -/
theorem pay_apply (x0 : Vec Ideal S200x64 .f32) (x1 : Vec Ideal S10000x64 .f32) (p : Fin 200) (q : Fin 10000) :
    k0_pay1 (F := Ideal) x0 x1 (ix2 p q) = Ideal.logistic (∑ k : Fin 64, (x0 (ix2 p k) : EReal) * (x1 (ix2 q k) : EReal)) := by
  unfold k0_pay1
  rw [shapeCast_self, shapeCast_self]
  unfold logistic
  rw [Ideal.logistic_def]
  refine congrArg Ideal.logistic ((RowDot.matmul_zero_apply _ rfl rfl rfl rfl rfl rfl none _ _ p q).trans ?_)
  refine Finset.sum_congr rfl fun k _ => ?_
  rw [truncf_apply, truncf_apply]

variable (m : (ℓ : Loc nD τ sig) → Buf (Elt Ideal) ℓ) (ρ : Dev nD → PrngReg)

/-! ## From the blocks to the array -/

/-- `z` as the call finds it on core `c`. -/
def zAt (c : Dev nD) : FVec Ideal (⟨2, ![10000, 64]⟩ : Shape) .f32 := V m c main_v95

theorem hzero : (![0, 0] : Fin 2 → Nat) = fun _ => 0 := funext fun a => by fin_cases a <;> rfl

/-- The printed index maps over the grid: point `t` reads row block `t` of `z` through window 0 and block 0 — all of `z`
    — through window 1, and writes row block `t` of the result, its one column block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `adj z`. -/
theorem flushed_eq (c : Dev nD) (t : Fin cfg0.N) :
    (dats m 0 c).flushed 2 t = ((cfg0.win 2).blk t).view.read (Elt Ideal) (DecodeSpec.adj (zAt m c)) := by
  show (cfg0.win 2).cut (grid0.coords t) ((dats m 0 c).after 2 t) = _
  rw [after_out]
  unfold adjBlock
  rw [View.canon_unit_zero hzero]
  simp only [View.ld_unit_zero (S := S200x64) hzero, View.ld_unit_zero (S := S10000x64) hzero]
  obtain ⟨e00, e01, e10, e11, e20, e21⟩ := idx_facts t
  funext j
  obtain ⟨p, q, rfl⟩ : ∃ (p : Fin 200) (q : Fin 10000), j = ix2 p q := ⟨j 0, j 1, eq_ix2 j⟩
  show k0_pay1 (F := Ideal) (iblk m c 0 t) (iblk m c 1 t) (ix2 p q) = DecodeSpec.adj (zAt m c) (((cfg0.win 2).blk t).view.emb (ix2 p q))
  rw [pay_apply]
  unfold DecodeSpec.adj DecodeSpec.adjAt
  refine congrArg Ideal.logistic (Finset.sum_congr rfl fun k _ => ?_)
  have hl : iblk m c 0 t (ix2 p k) = zAt m c (ix2 ((((cfg0.win 2).blk t).view.emb (ix2 p q)) 0) k) := by
    show V m c main_v95 (((cfg0.win 0).blk t).view.emb (ix2 p k)) = V m c main_v95 _
    refine congrArg _ (funext fun a => Fin.ext ?_)
    match a with
    | ⟨0, _⟩ => show win0_0.index t (0 : Fin 2) * 200 + 1 * p.val = win0_2.index t (0 : Fin 2) * 200 + 1 * p.val; omega
    | ⟨1, _⟩ => show win0_0.index t (1 : Fin 2) * 64 + 1 * k.val = k.val; omega
  have hr : iblk m c 1 t (ix2 q k) = zAt m c (ix2 ((((cfg0.win 2).blk t).view.emb (ix2 p q)) 1) k) := by
    show V m c main_v95 (((cfg0.win 1).blk t).view.emb (ix2 q k)) = V m c main_v95 _
    refine congrArg _ (funext fun a => Fin.ext ?_)
    match a with
    | ⟨0, _⟩ => show win0_1.index t (0 : Fin 2) * 10000 + 1 * q.val = win0_2.index t (1 : Fin 2) * 10000 + 1 * q.val; omega
    | ⟨1, _⟩ => show win0_1.index t (1 : Fin 2) * 64 + 1 * k.val = k.val; omega
  rw [hl, hr]

/-- An index of the result is in point `t`'s block iff each coordinate is in the block's range on its axis. -/
theorem mem_blk (t : Fin cfg0.N) (i : S10000x10000.Idx) :
    i ∈ ((cfg0.win 2).blk t).view.set ↔ ∀ a : Fin 2, win0_2.index t a * S200x10000.size a ≤ (i a).val ∧ (i a).val < win0_2.index t a * S200x10000.size a + S200x10000.size a := by
  show i ∈ ((View.whole main_v96).slice (win0_2.rect t)).set ↔ _
  rw [View.set_slice_whole, Rect.mem_set_unit]
  exact Iff.rfl

/-- Every entry of the result is in the block of the point that covers its row: row `r` is in block `r / 200`. -/
theorem covered (i : S10000x10000.Idx) : ∃ t : Fin cfg0.N, (cfg0.win 2).flush t = true ∧ i ∈ ((cfg0.win 2).blk t).view.set := by
  have hi0 : (i 0).val < 10000 := (i 0).isLt
  have hi1 : (i 1).val < 10000 := (i 1).isLt
  have hN : cfg0.N = 50 := N_0
  have ht : (i 0).val / 200 < cfg0.N := by rw [hN]; omega
  refine ⟨⟨(i 0).val / 200, ht⟩, flush0_2 _, ?_⟩
  rw [mem_blk]
  obtain ⟨-, -, -, -, e20, e21⟩ := idx_facts ⟨(i 0).val / 200, ht⟩
  intro a
  match a with
  | ⟨0, _⟩ => show win0_2.index _ (0 : Fin 2) * 200 ≤ (i 0).val ∧ (i 0).val < win0_2.index _ (0 : Fin 2) * 200 + 200; rw [e20]; show (i 0).val / 200 * 200 ≤ (i 0).val ∧ (i 0).val < (i 0).val / 200 * 200 + 200; omega
  | ⟨1, _⟩ => show win0_2.index _ (1 : Fin 2) * 10000 ≤ (i 1).val ∧ (i 1).val < win0_2.index _ (1 : Fin 2) * 10000 + 10000; rw [e21]; omega

/-- THE ARRAY after the run: `adj z`. -/
theorem final (c : Dev nD) : (dats m 0 c).arrAt 2 cfg0.N = DecodeSpec.adj (zAt m c) :=
  (dats m 0 c).arrAt_eq_of_cover 2 (DecodeSpec.adj (zAt m c)) (fun t _ => flushed_eq m c t) (covered)

end Cert.KernelIdeal.Decode

end
-- ==== Proof.KernelIdeal.Prelude.lean ====
/-
  The means, the standard deviations and `z` as the idealized kernel's call finds them.

  Both programs compute the encoder the same way, operation for operation: three graph convolutions and
  `z = eps * exp logvar + mu`. The kernel's host operations before its call are the reference's first operations, so the
  buffer the call finds at each of these three places holds the reference's stage of that name applied to the kernel's own
  argument arrays: the fold of the kernel's operations over the launch memory, read at the buffer, is that composed term.
-/
import proofs.«164066_j8186207666838_1_alg».proof.Proof.KernelIdeal.Entry
import proofs.«164066_j8186207666838_1_alg».proof.Proof.Gen.ReferenceIdeal.Read
import Idealize.ShloMosaic.Lib.StableHlo.Run

set_option maxRecDepth 16384

noncomputable section

namespace Cert.KernelIdeal.Decode

open Idealize.ShloMosaic Idealize.ShloMosaic.TcCoe Idealize.ShloMosaic.StableHlo
open Idealize.SL Idealize.SL.Sem
open Cert.KernelIdeal Cert.KernelIdeal.Gen

variable {F : FTy → Type} [FloatOps F]
variable (m : (ℓ : Loc nD τ sig) → Buf (Elt F) ℓ)

/-- The host operations before the call as one literal list. -/
local macro "spell_host_lines" : tactic => `(tactic| simp only [hostLines, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.append_nil, List.cons_append, List.nil_append])

set_option maxHeartbeats 40000000 in
/-- The means: the second graph convolution of the first's output. -/
theorem V_mu (c : Dev nD) : V m c main_v61
    = Cert.ReferenceIdeal.Read.val_main_v61 (F := F) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after (List.flatten hostLines) (fun b => m (c, b)) (Proc.devRef .tc main_v61) = _
  spell_host_lines
  after_results_simp
  rfl

set_option maxHeartbeats 40000000 in
/-- The standard deviations: the exponential of the third graph convolution. -/
theorem V_std (c : Dev nD) : V m c main_v93
    = Cert.ReferenceIdeal.Read.val_main_v93 (F := F) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  show StableHlo.after (List.flatten hostLines) (fun b => m (c, b)) (Proc.devRef .tc main_v93) = _
  spell_host_lines
  after_results_simp
  rfl

set_option maxHeartbeats 40000000 in
/-- `z = eps * std + mu`. -/
theorem V_z (c : Dev nD) : V m c main_v95
    = Cert.ReferenceIdeal.Read.val_main_v95 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after (List.flatten hostLines) (fun b => m (c, b)) (Proc.devRef .tc main_v95) = _
  spell_host_lines
  after_results_simp
  rfl

end Cert.KernelIdeal.Decode

end
-- ==== Proof.Reference.lean ====
/-
  The reference's decoded matrix is `adj` of the reference's `z`.

  The reference transposes `z`, multiplies `z` by the transpose — the entry (p, q) of the product is the sum over k of
  `z (p, k)` times the transpose's `(k, q)`, which is `z (q, k)` — and applies the logistic function spelt out as a negation,
  an exponential, the sum with the float 1.0 and the quotient of the float 1.0 by it. Entry by entry that is
  `logistic (∑ k, z (p, k) · z (q, k))`.
-/
import proofs.«164066_j8186207666838_1_alg».proof.Proof.Gen.ReferenceIdeal.Read
import proofs.«164066_j8186207666838_1_alg».proof.Proof.DecodeSpec
import Idealize.ShloMosaic.Lib.ValueIdx

set_option maxRecDepth 16384

noncomputable section

namespace Cert.ReferenceIdeal.RefValue

open Idealize.ShloMosaic Idealize.ShloMosaic.ValueIdx
open Cert.ReferenceIdeal Cert.ReferenceIdeal.Read
open scoped BigOperators

/-- The stage that holds the reference's decoded matrix is `adj` of the stage that holds its `z`. -/
theorem decoded_eq (x0 : (⟨S10000x512, .f32⟩ : BufTy).Contents (Elt Ideal)) (x1 : (⟨S10000x64, .f32⟩ : BufTy).Contents (Elt Ideal)) (x2 x3 : (⟨S320000, .i32⟩ : BufTy).Contents (Elt Ideal)) (x4 : (⟨S512x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v103 (F := Ideal) x0 x1 x2 x3 x4 x5 x6 x7 x8 x9 = DecodeSpec.adj (val_main_v95 (F := Ideal) x0 x1 x2 x3 x4 x5 x6 x7 x8 x9) := by
  funext i
  obtain ⟨p, q, rfl⟩ : ∃ (p : Fin 10000) (q : Fin 10000), i = ix2 p q := ⟨i 0, i 1, eq_ix2 i⟩
  rw [val_main_v103_apply, val_main_v102_apply, val_main_cst_23_apply, val_main_v101_apply, val_main_v100_apply,
    val_main_cst_22_apply, val_main_v99_apply, val_main_v98_apply, val_main_v97_apply, DecodeSpec.host_spelling,
    DecodeSpec.adj_apply]
  unfold DecodeSpec.adjAt
  refine congrArg Ideal.logistic (Finset.sum_congr rfl fun k _ => ?_)
  rw [val_main_v96_apply]
  have el : lidx_main_v97 (ix2 p q) k = ix2 p k := funext fun a => Fin.ext (by
    match a with
    | ⟨0, _⟩ => rfl
    | ⟨1, _⟩ => rfl)
  have er : idx_main_v96 (ridx_main_v97 (ix2 p q) k) = ix2 q k := funext fun a => Fin.ext (by
    match a with
    | ⟨0, _⟩ => rfl
    | ⟨1, _⟩ => rfl)
  rw [el, er]

end Cert.ReferenceIdeal.RefValue

end
-- ==== Proof.lean ====
/-
  A variational graph auto-encoder's forward pass: the kernel against its reference, over the extended reals.

  Both programs encode the same way, operation for operation, on the host: three graph convolutions give the means `mu` and
  the log-variances, `std = exp logvar`, and `z = eps * std + mu`. They differ in the decoder `adj = logistic (z zᵀ)`. The
  kernel computes it in one pallas_call over 50 grid points: point `t` reads rows `200 t … 200 t + 199` of `z` through one
  window and all of `z` through another — the two windows share the one array —, multiplies the first by the transpose of the
  second (in a narrower float format, which is the identity at the extended reals), applies the logistic function and writes
  rows `200 t … 200 t + 199` of the result. The reference transposes `z`, takes the whole product and spells the logistic
  function out as `1 / (1 + exp (-x))`.

  * The three frames: the reference's is its run with the results dropped; each kernel program's is the pipeline's frame run
    with `z`'s full share dealt between the two windows that read it (Proof/KernelIdeal/Run.lean, and Proof/Kernel/Run.lean
    for the word-level program, the same text under its namespace).
  * `preserves`: the idealization rewrote nothing, and the conjunct is `True`.
  * `algebraic`: the kernel's decoded matrix ends as `adj z` for the `z` its call finds (Proof/KernelIdeal/Value.lean), the
    reference's as `adj` of its own `z` (Proof/Reference.lean), with `adj z (p, q) = logistic (∑ k, z (p, k) · z (q, k))`
    (Proof/DecodeSpec.lean): no law beyond the definition of the logistic function is used, so the finiteness of the inputs
    is never opened. The two `z`, the means and the standard deviations are one function of the arguments on both sides
    (Proof/KernelIdeal/Prelude.lean), and the arguments agree.
-/
import proofs.«164066_j8186207666838_1_alg».proof.Defs
import proofs.«164066_j8186207666838_1_alg».proof.Proof.Gen.Kernel
import proofs.«164066_j8186207666838_1_alg».proof.Proof.Gen.Kernel.Skeleton
import proofs.«164066_j8186207666838_1_alg».proof.Proof.Gen.Kernel.Launch
import proofs.«164066_j8186207666838_1_alg».proof.Proof.Gen.Kernel.Points
import proofs.«164066_j8186207666838_1_alg».proof.Proof.Gen.KernelIdeal
import proofs.«164066_j8186207666838_1_alg».proof.Proof.Gen.KernelIdeal.Skeleton
import proofs.«164066_j8186207666838_1_alg».proof.Proof.Gen.KernelIdeal.Launch
import proofs.«164066_j8186207666838_1_alg».proof.Proof.Gen.KernelIdeal.Points
import proofs.«164066_j8186207666838_1_alg».proof.Proof.Gen.ReferenceIdeal
import proofs.«164066_j8186207666838_1_alg».proof.Proof.Gen.ReferenceIdeal.Run
import proofs.«164066_j8186207666838_1_alg».proof.Proof.Gen.ReferenceIdeal.Read
import proofs.«164066_j8186207666838_1_alg».proof.Proof.Gen.Pre_finite_inputs
import proofs.«164066_j8186207666838_1_alg».proof.Proof.Kernel.Run
import proofs.«164066_j8186207666838_1_alg».proof.Proof.KernelIdeal.Run
import proofs.«164066_j8186207666838_1_alg».proof.Proof.KernelIdeal.Value
import proofs.«164066_j8186207666838_1_alg».proof.Proof.KernelIdeal.Prelude
import proofs.«164066_j8186207666838_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments as launched. -/
theorem frame_k : Cert.frame_Kernel := fun m ρ _ => Cert.Kernel.Decode.frame m ρ

/-- So does the idealized kernel. -/
theorem frame_ki : Cert.frame_KernelIdeal := fun m ρ _ => Cert.KernelIdeal.Decode.frame m ρ

/-- So does the reference: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- At the extended reals, from memories that agree on the arguments, both programs end with the same decoded matrix,
    the same means and the same standard deviations: the results named are the kernel's own final contents, and the
    reference's are shown equal to them. -/
theorem algebraic : Cert.algebraic_KernelIdeal_ReferenceIdeal := by
  intro m ρ m' ρ' _ hagree
  refine ⟨fun c => (Cert.KernelIdeal.Decode.dats m 0 c).arrAt 2 Cert.KernelIdeal.cfg0.N, fun c => Cert.KernelIdeal.Decode.V m c Cert.KernelIdeal.main_v61,
    fun c => Cert.KernelIdeal.Decode.V m c Cert.KernelIdeal.main_v93, Cert.KernelIdeal.Decode.run_read m ρ, ?_⟩
  refine (θ_run Cert.ReferenceIdeal.defs _ _).mono (fun _ h c => ⟨?_, ?_, ?_, (h c).2.2.2⟩) (Cert.ReferenceIdeal.Value.run (F := Ideal) m' ρ')
  all_goals obtain ⟨a0, a1, a2, a3, a4, a5, a6, a7, a8, a9⟩ := hagree c
  · show _ = (Cert.KernelIdeal.Decode.dats m 0 c).arrAt 2 Cert.KernelIdeal.cfg0.N
    rw [(h c).1, Cert.ReferenceIdeal.Read.val_main_v103_eq, Cert.ReferenceIdeal.RefValue.decoded_eq, a0, a1, a2, a3, a4, a5, a6, a7, a8, a9,
      Cert.KernelIdeal.Decode.final, Cert.KernelIdeal.Decode.zAt, Cert.KernelIdeal.Decode.V_z]
  · show _ = Cert.KernelIdeal.Decode.V m c Cert.KernelIdeal.main_v61
    rw [(h c).2.1, Cert.ReferenceIdeal.Read.val_main_v61_eq, a0, a2, a3, a4, a5, a6, a7, Cert.KernelIdeal.Decode.V_mu]
  · show _ = Cert.KernelIdeal.Decode.V m c Cert.KernelIdeal.main_v93
    rw [(h c).2.2.1, Cert.ReferenceIdeal.Read.val_main_v93_eq, a0, a2, a3, a4, a5, a8, a9, Cert.KernelIdeal.Decode.V_std]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
